-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x10000x64 : Shape := ⟨3, ![16, 10000, 64]⟩
abbrev S16x10000x8 : Shape := ⟨3, ![16, 10000, 8]⟩
abbrev S512x64 : Shape := ⟨2, ![512, 64]⟩
abbrev S64 : Shape := ⟨1, ![64]⟩
abbrev S_ : Shape := ⟨0, ![]⟩

class Facts : Prop where
  bcast_S_S16x10000x64 : S_.BroadcastsInDim S16x10000x64 (![] : Fin 0 → Fin S16x10000x64.rank)
  reducesTo_S16x10000x64_S_d0_1_2 : S16x10000x64.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16x10000x64 .f32) (main_arg1 : IVec S16x10000x8 32) (main_arg2 : FVec F S512x64 .f32) (main_arg3 : FVec F S64 .f32) : IVec S_ 1 :=
  let main_v0 : FVec F S16x10000x64 .f32 := Host.absf main_arg0
  let main_cst : FVec F S_ .f32 := constant S_ .f32 0x7F800000#32
  let main_v1 : FVec F S16x10000x64 .f32 := broadcastInDim S16x10000x64 ![] bcast_S_S16x10000x64 main_cst
  let main_v2 : IVec S16x10000x64 1 := cmpf .olt main_v0 main_v1
  let main_c : IVec S_ 1 := constantI S_ 1 1#1
  let main_v3 : IVec S_ 1 := (fun x v => Host.reduce IntOp.andi x v reducesTo_S16x10000x64_S_d0_1_2 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16x10000x64 : Shape := ⟨3, ![16, 10000, 64]⟩
abbrev S16x10000x8 : Shape := ⟨3, ![16, 10000, 8]⟩
abbrev S512x64 : Shape := ⟨2, ![512, 64]⟩
abbrev S64 : Shape := ⟨1, ![64]⟩
abbrev S_ : Shape := ⟨0, ![]⟩
abbrev S16 : Shape := ⟨1, ![16]⟩
abbrev S16x1x1 : Shape := ⟨3, ![16, 1, 1]⟩
abbrev S16x10000x8x1 : Shape := ⟨4, ![16, 10000, 8, 1]⟩
abbrev S16x10000x8x2 : Shape := ⟨4, ![16, 10000, 8, 2]⟩
abbrev S16x10000x8x64 : Shape := ⟨4, ![16, 10000, 8, 64]⟩
abbrev S16x10000x512 : Shape := ⟨3, ![16, 10000, 512]⟩
abbrev S1x64 : Shape := ⟨2, ![1, 64]⟩
abbrev S1x10000x512 : Shape := ⟨3, ![1, 10000, 512]⟩
abbrev S1x10000x64 : Shape := ⟨3, ![1, 10000, 64]⟩
abbrev S10000x512 : Shape := ⟨2, ![10000, 512]⟩
abbrev S10000x64 : Shape := ⟨2, ![10000, 64]⟩

abbrev nBuf : Space → Nat
  | .hbm => 46
  | .vmem => 6
  | .smem => 0
  | _ => 0

abbrev bufTy : (tb : Table) → Fin (tcTables nBuf tb) → BufTy
  | .hbm, ⟨0, _⟩ => ⟨S16x10000x64, .f32⟩
  | .hbm, ⟨1, _⟩ => ⟨S16x10000x8, .i32⟩
  | .hbm, ⟨2, _⟩ => ⟨S512x64, .f32⟩
  | .hbm, ⟨3, _⟩ => ⟨S64, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16x10000x8, .i32⟩
  | .hbm, ⟨8, _⟩ => ⟨S16x10000x8, .i32⟩
  | .hbm, ⟨9, _⟩ => ⟨S_, .i32⟩
  | .hbm, ⟨10, _⟩ => ⟨S16x10000x8, .i32⟩
  | .hbm, ⟨11, _⟩ => ⟨S16x10000x8, .i32⟩
  | .hbm, ⟨12, _⟩ => ⟨S16, .i32⟩
  | .hbm, ⟨13, _⟩ => ⟨S16x1x1, .i32⟩
  | .hbm, ⟨14, _⟩ => ⟨S_, .i32⟩
  | .hbm, ⟨15, _⟩ => ⟨S16x1x1, .i32⟩
  | .hbm, ⟨16, _⟩ => ⟨S16x1x1, .i1⟩
  | .hbm, ⟨17, _⟩ => ⟨S_, .i32⟩
  | .hbm, ⟨18, _⟩ => ⟨S16x1x1, .i32⟩
  | .hbm, ⟨19, _⟩ => ⟨S16x1x1, .i32⟩
  | .hbm, ⟨20, _⟩ => ⟨S16x1x1, .i32⟩
  | .hbm, ⟨21, _⟩ => ⟨S_, .i32⟩
  | .hbm, ⟨22, _⟩ => ⟨S16x10000x8, .i32⟩
  | .hbm, ⟨23, _⟩ => ⟨S16x10000x8, .i1⟩
  | .hbm, ⟨24, _⟩ => ⟨S_, .i32⟩
  | .hbm, ⟨25, _⟩ => ⟨S16x10000x8, .i32⟩
  | .hbm, ⟨26, _⟩ => ⟨S16x10000x8, .i32⟩
  | .hbm, ⟨27, _⟩ => ⟨S16x10000x8, .i32⟩
  | .hbm, ⟨28, _⟩ => ⟨S16x10000x8, .i32⟩
  | .hbm, ⟨29, _⟩ => ⟨S16x10000x8x1, .i32⟩
  | .hbm, ⟨30, _⟩ => ⟨S16x10000x8x1, .i32⟩
  | .hbm, ⟨31, _⟩ => ⟨S16x10000x8x2, .i32⟩
  | .hbm, ⟨32, _⟩ => ⟨S16x10000x8x64, .f32⟩
  | .hbm, ⟨33, _⟩ => ⟨S_, .i32⟩
  | .hbm, ⟨34, _⟩ => ⟨S16x10000x8, .i32⟩
  | .hbm, ⟨35, _⟩ => ⟨S16x10000x8, .i1⟩
  | .hbm, ⟨36, _⟩ => ⟨S16x10000x8x1, .i1⟩
  | .hbm, ⟨37, _⟩ => ⟨S_, .f32⟩
  | .hbm, ⟨38, _⟩ => ⟨S16x10000x8x64, .i1⟩
  | .hbm, ⟨39, _⟩ => ⟨S16x10000x8x64, .f32⟩
  | .hbm, ⟨40, _⟩ => ⟨S16x10000x8x64, .f32⟩
  | .hbm, ⟨41, _⟩ => ⟨S16x10000x512, .f32⟩
  | .hbm, ⟨42, _⟩ => ⟨S16x10000x512, .bf16⟩
  | .hbm, ⟨43, _⟩ => ⟨S512x64, .bf16⟩
  | .hbm, ⟨44, _⟩ => ⟨S1x64, .f32⟩
  | .hbm, ⟨45, _⟩ => ⟨S16x10000x64, .f32⟩
  | .local _ .vmem, ⟨0, _⟩ => ⟨S1x10000x512, .bf16⟩
  | .local _ .vmem, ⟨1, _⟩ => ⟨S1x10000x512, .bf16⟩
  | .local _ .vmem, ⟨2, _⟩ => ⟨S512x64, .bf16⟩
  | .local _ .vmem, ⟨3, _⟩ => ⟨S1x64, .f32⟩
  | .local _ .vmem, ⟨4, _⟩ => ⟨S1x10000x64, .f32⟩
  | .local _ .vmem, ⟨5, _⟩ => ⟨S1x10000x64, .f32⟩
  | _, _ => ⟨S16x10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_v3 : Ref sig .tc := ⟨.hbm, 15, rfl⟩
abbrev main_v4 : Ref sig .tc := ⟨.hbm, 16, rfl⟩
abbrev main_c_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16x10000x8 : S_.BroadcastsInDim S16x10000x8 (![] : Fin 0 → Fin S16x10000x8.rank)
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x10000x8_0_1_2 : S16x1x1.BroadcastsInDim S16x10000x8 (![0, 1, 2] : Fin 3 → Fin S16x10000x8.rank)
  bcast_S16x10000x8_S16x10000x8x1_0_1_2 : S16x10000x8.BroadcastsInDim S16x10000x8x1 (![0, 1, 2] : Fin 3 → Fin S16x10000x8x1.rank)
  concatenates_S16x10000x8x1_S16x10000x8x1_S16x10000x8x2_d3 : Shape.Concatenates [S16x10000x8x1, S16x10000x8x1] S16x10000x8x2 3
  bcast_S16x10000x8x1_S16x10000x8x64_0_1_2_3 : S16x10000x8x1.BroadcastsInDim S16x10000x8x64 (![0, 1, 2, 3] : Fin 4 → Fin S16x10000x8x64.rank)
  bcast_S_S16x10000x8x64 : S_.BroadcastsInDim S16x10000x8x64 (![] : Fin 0 → Fin S16x10000x8x64.rank)
  shapeCasts_S16x10000x8x64_S16x10000x512 : S16x10000x8x64.ShapeCasts S16x10000x512
  bitsLt_bf16_f32 : FTy.bits .bf16 < FTy.bits .f32
  shapeCasts_S64_S1x64 : S64.ShapeCasts S1x64
  inb_S1x10000x512_S1x10000x512_0_0_0 : ∀ a, (![0, 0, 0] : Fin 3 → Nat) a + S1x10000x512.size a ≤ S1x10000x512.size a
  h_S1x10000x512 : 0 < S1x10000x512.numel
  shapeCasts_S1x10000x512_S10000x512 : S1x10000x512.ShapeCasts S10000x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  shapeCasts_S10000x64_S1x10000x64 : S10000x64.ShapeCasts S1x10000x64
  gather_S16x10000x64_S16x10000x8x2_S16x10000x8x64_3_01_n_n_01_3_1164_wf : GatherDims.WF S16x10000x64 S16x10000x8x2 S16x10000x8x64 [3] [0, 1] [] [0, 1] [] 3 ![1, 1, 64]
  dot_S10000x512_S512x64_S10000x64_1_0_0_1_n_n_wf : DotDims.WF S10000x512 S512x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x512.size a ≤ S16x10000x512.size a
  hwx0_0 : ∀ i : grid0.Coords, EltTy.bits .bf16 = 32 ∨ (Rect.block (s := S16x10000x512) S1x10000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .bf16 = 32 ∨ (Rect.block (s := S512x64) S512x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10000x64.size a ≤ S16x10000x64.size a
  hwx0_3 : ∀ i : grid0.Coords, EltTy.bits .f32 = 32 ∨ (Rect.block (s := S16x10000x64) S1x10000x64.size (cc0_transform_3 i) (hinb0_3 i)).WholeWords (EltTy.packing .f32)

variable [Facts₀]

def gather_S16x10000x64_S16x10000x8x2_S16x10000x8x64_3_01_n_n_01_3_1164 : GatherDims S16x10000x64 S16x10000x8x2 S16x10000x8x64 where
  offsetDims := [3]
  collapsedSliceDims := [0, 1]
  operandBatchingDims := []
  startIndicesBatchingDims := []
  startIndexMap := [0, 1]
  indexVectorDim := 3
  sliceSizes := ![1, 1, 64]
  wf := gather_S16x10000x64_S16x10000x8x2_S16x10000x8x64_3_01_n_n_01_3_1164_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf

abbrev win0_0 : Pipeline.Window sig grid0 :=
  Pipeline.Window.ofSpec (Memref.whole main_v23) S1x10000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x10000x64 : Shape := ⟨3, ![16, 10000, 64]⟩
abbrev S16x10000x8 : Shape := ⟨3, ![16, 10000, 8]⟩
abbrev S512x64 : Shape := ⟨2, ![512, 64]⟩
abbrev S64 : Shape := ⟨1, ![64]⟩
abbrev S_ : Shape := ⟨0, ![]⟩
abbrev S16 : Shape := ⟨1, ![16]⟩
abbrev S16x1x1 : Shape := ⟨3, ![16, 1, 1]⟩
abbrev S16x10000x8x1 : Shape := ⟨4, ![16, 10000, 8, 1]⟩
abbrev S16x10000x8x2 : Shape := ⟨4, ![16, 10000, 8, 2]⟩
abbrev S16x10000x8x64 : Shape := ⟨4, ![16, 10000, 8, 64]⟩
abbrev S16x10000x512 : Shape := ⟨3, ![16, 10000, 512]⟩
abbrev S1x1x64 : Shape := ⟨3, ![1, 1, 64]⟩

abbrev nBuf : Space → Nat
  | .hbm => 49
  | .vmem => 0
  | .smem => 0
  | _ => 0

abbrev bufTy : (tb : Table) → Fin (tcTables nBuf tb) → BufTy
  | .hbm, ⟨0, _⟩ => ⟨S16x10000x64, .f32⟩
  | .hbm, ⟨1, _⟩ => ⟨S16x10000x8, .i32⟩
  | .hbm, ⟨2, _⟩ => ⟨S512x64, .f32⟩
  | .hbm, ⟨3, _⟩ => ⟨S64, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16x10000x8, .i32⟩
  | .hbm, ⟨8, _⟩ => ⟨S16x10000x8, .i32⟩
  | .hbm, ⟨9, _⟩ => ⟨S_, .i32⟩
  | .hbm, ⟨10, _⟩ => ⟨S16x10000x8, .i32⟩
  | .hbm, ⟨11, _⟩ => ⟨S16x10000x8, .i32⟩
  | .hbm, ⟨12, _⟩ => ⟨S16, .i32⟩
  | .hbm, ⟨13, _⟩ => ⟨S16x1x1, .i32⟩
  | .hbm, ⟨14, _⟩ => ⟨S_, .i32⟩
  | .hbm, ⟨15, _⟩ => ⟨S16x1x1, .i32⟩
  | .hbm, ⟨16, _⟩ => ⟨S16x1x1, .i1⟩
  | .hbm, ⟨17, _⟩ => ⟨S_, .i32⟩
  | .hbm, ⟨18, _⟩ => ⟨S16x1x1, .i32⟩
  | .hbm, ⟨19, _⟩ => ⟨S16x1x1, .i32⟩
  | .hbm, ⟨20, _⟩ => ⟨S16x1x1, .i32⟩
  | .hbm, ⟨21, _⟩ => ⟨S_, .i32⟩
  | .hbm, ⟨22, _⟩ => ⟨S16x10000x8, .i32⟩
  | .hbm, ⟨23, _⟩ => ⟨S16x10000x8, .i1⟩
  | .hbm, ⟨24, _⟩ => ⟨S_, .i32⟩
  | .hbm, ⟨25, _⟩ => ⟨S16x10000x8, .i32⟩
  | .hbm, ⟨26, _⟩ => ⟨S16x10000x8, .i32⟩
  | .hbm, ⟨27, _⟩ => ⟨S16x10000x8, .i32⟩
  | .hbm, ⟨28, _⟩ => ⟨S16x10000x8, .i32⟩
  | .hbm, ⟨29, _⟩ => ⟨S16x10000x8x1, .i32⟩
  | .hbm, ⟨30, _⟩ => ⟨S16x10000x8x1, .i32⟩
  | .hbm, ⟨31, _⟩ => ⟨S16x10000x8x2, .i32⟩
  | .hbm, ⟨32, _⟩ => ⟨S16x10000x8x64, .f32⟩
  | .hbm, ⟨33, _⟩ => ⟨S_, .i32⟩
  | .hbm, ⟨34, _⟩ => ⟨S16x10000x8, .i32⟩
  | .hbm, ⟨35, _⟩ => ⟨S16x10000x8, .i1⟩
  | .hbm, ⟨36, _⟩ => ⟨S16x10000x8x1, .i1⟩
  | .hbm, ⟨37, _⟩ => ⟨S_, .f32⟩
  | .hbm, ⟨38, _⟩ => ⟨S16x10000x8x64, .i1⟩
  | .hbm, ⟨39, _⟩ => ⟨S16x10000x8x64, .f32⟩
  | .hbm, ⟨40, _⟩ => ⟨S16x10000x8x64, .f32⟩
  | .hbm, ⟨41, _⟩ => ⟨S16x10000x512, .f32⟩
  | .hbm, ⟨42, _⟩ => ⟨S16x10000x64, .f32⟩
  | .hbm, ⟨43, _⟩ => ⟨S1x1x64, .f32⟩
  | .hbm, ⟨44, _⟩ => ⟨S16x10000x64, .f32⟩
  | .hbm, ⟨45, _⟩ => ⟨S16x10000x64, .f32⟩
  | .hbm, ⟨46, _⟩ => ⟨S_, .f32⟩
  | .hbm, ⟨47, _⟩ => ⟨S16x10000x64, .f32⟩
  | .hbm, ⟨48, _⟩ => ⟨S16x10000x64, .f32⟩
  | _, _ => ⟨S16x10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_v3 : Ref sig .tc := ⟨.hbm, 15, rfl⟩
abbrev main_v4 : Ref sig .tc := ⟨.hbm, 16, rfl⟩
abbrev main_c_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call2_cst : Ref sig .tc := ⟨.hbm, 46, rfl⟩
abbrev main_call2_v0 : Ref sig .tc := ⟨.hbm, 47, rfl⟩
abbrev main_v27 : Ref sig .tc := ⟨.hbm, 48, rfl⟩

abbrev nD : Nat := 1
abbrev τ : Topo := Topo.v7x

variable {F : FTy → Type} [FloatOps F]

class Facts₀ : Prop where
  bcast_S_S16x10000x8 : S_.BroadcastsInDim S16x10000x8 (![] : Fin 0 → Fin S16x10000x8.rank)
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x10000x8_0_1_2 : S16x1x1.BroadcastsInDim S16x10000x8 (![0, 1, 2] : Fin 3 → Fin S16x10000x8.rank)
  bcast_S16x10000x8_S16x10000x8x1_0_1_2 : S16x10000x8.BroadcastsInDim S16x10000x8x1 (![0, 1, 2] : Fin 3 → Fin S16x10000x8x1.rank)
  concatenates_S16x10000x8x1_S16x10000x8x1_S16x10000x8x2_d3 : Shape.Concatenates [S16x10000x8x1, S16x10000x8x1] S16x10000x8x2 3
  bcast_S16x10000x8x1_S16x10000x8x64_0_1_2_3 : S16x10000x8x1.BroadcastsInDim S16x10000x8x64 (![0, 1, 2, 3] : Fin 4 → Fin S16x10000x8x64.rank)
  bcast_S_S16x10000x8x64 : S_.BroadcastsInDim S16x10000x8x64 (![] : Fin 0 → Fin S16x10000x8x64.rank)
  shapeCasts_S16x10000x8x64_S16x10000x512 : S16x10000x8x64.ShapeCasts S16x10000x512
  bcast_S64_S1x1x64_2 : S64.BroadcastsInDim S1x1x64 (![2] : Fin 1 → Fin S1x1x64.rank)
  bcast_S1x1x64_S16x10000x64_0_1_2 : S1x1x64.BroadcastsInDim S16x10000x64 (![0, 1, 2] : Fin 3 → Fin S16x10000x64.rank)
  bcast_S_S16x10000x64 : S_.BroadcastsInDim S16x10000x64 (![] : Fin 0 → Fin S16x10000x64.rank)
  gather_S16x10000x64_S16x10000x8x2_S16x10000x8x64_3_01_n_n_01_3_1164_wf : GatherDims.WF S16x10000x64 S16x10000x8x2 S16x10000x8x64 [3] [0, 1] [] [0, 1] [] 3 ![1, 1, 64]
  dot_S16x10000x512_S512x64_S16x10000x64_2_0_01_1_n_n_wf : DotDims.WF S16x10000x512 S512x64 S16x10000x64 [2] [0] [0, 1] [1] [] []

variable [Facts₀]

def gather_S16x10000x64_S16x10000x8x2_S16x10000x8x64_3_01_n_n_01_3_1164 : GatherDims S16x10000x64 S16x10000x8x2 S16x10000x8x64 where
  offsetDims := [3]
  collapsedSliceDims := [0, 1]
  operandBatchingDims := []
  startIndicesBatchingDims := []
  startIndexMap := [0, 1]
  indexVectorDim := 3
  sliceSizes := ![1, 1, 64]
  wf := gather_S16x10000x64_S16x10000x8x2_S16x10000x8x64_3_01_n_n_01_3_1164_wf
def dot_S16x10000x512_S512x64_S16x10000x64_2_0_01_1_n_n : DotDims S16x10000x512 S512x64 S16x10000x64 where
  lhsContracting := [2]
  rhsContracting := [0]
  lhsNonContracting := [0, 1]
  rhsNonContracting := [1]
  lhsBatch := []
  rhsBatch := []
  wf := dot_S16x10000x512_S512x64_S16x10000x64_2_0_01_1_n_n_wf

class Facts : Prop extends Facts₀ where

variable [Facts]
-- ==== Proof.Spec.lean ====
/-
  The dense layer both programs end with, as one function of its three operands, index by index on the
  extended reals: row (b, v) of the gathered columns against column u of the weight matrix, summed over the 512
  column positions, plus the bias at u, and the result clipped below at zero.
-/
import Idealize.ShloMosaic.PureOps.Ideal
import Idealize.ShloMosaic.Lib.ValueIdx

noncomputable section

namespace Cert.Dense

open Idealize.ShloMosaic Idealize.ShloMosaic.ValueIdx

/-- Entry (b, v, u) of the dense layer: max (∑ₖ cols[b, v, k] · w[k, u] + bias[u], 0). -/
def entry (cols : (⟨3, ![16, 10000, 512]⟩ : Shape).Idx → EReal) (w : (⟨2, ![512, 64]⟩ : Shape).Idx → EReal)
    (bias : (⟨1, ![64]⟩ : Shape).Idx → EReal) (b : Fin 16) (v : Fin 10000) (u : Fin 64) : EReal :=
  max ((∑ k : Fin 512, cols (ix3 b v k) * w (ix2 k u)) + bias (ix1 u)) 0

/-- The whole [16, 10000, 64] result. -/
def layer (cols : (⟨3, ![16, 10000, 512]⟩ : Shape).Idx → EReal) (w : (⟨2, ![512, 64]⟩ : Shape).Idx → EReal)
    (bias : (⟨1, ![64]⟩ : Shape).Idx → EReal) : (⟨3, ![16, 10000, 64]⟩ : Shape).Idx → EReal :=
  fun i => entry cols w bias (i 0) (i 1) (i 2)

theorem layer_apply (cols : (⟨3, ![16, 10000, 512]⟩ : Shape).Idx → EReal) (w : (⟨2, ![512, 64]⟩ : Shape).Idx → EReal)
    (bias : (⟨1, ![64]⟩ : Shape).Idx → EReal) (b : Fin 16) (v : Fin 10000) (u : Fin 64) :
    layer cols w bias (ix3 b v u) = entry cols w bias b v u := rfl

end Cert.Dense

end
-- ==== Proof.Payload.lean ====
/-
  One grid point's block of the dense layer. The kernel body takes a [1, 10000, 512] block of gathered columns, the
  whole [512, 64] weight matrix and the [1, 64] bias row, drops the unit axes, multiplies, adds the bias row to every
  row, clips below at zero and puts the unit axis back. Read at entry (r, u) on the extended reals this is
  max (∑ₖ x[0, r, k] · w[k, u] + bias[0, u], 0): the matrix product into a zero accumulator is the plain sum over the
  512 column positions.
-/
import proofs.«128345_j53687091200297_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The matrix product's operand indices, axis by axis -/

theorem lhs_rows (j : S10000x64.Idx) (q : dot_S10000x512_S512x64_S10000x64_1_0_0_1_n_n.contr.Idx) :
    (dot_S10000x512_S512x64_S10000x64_1_0_0_1_n_n.lhsIdx j q 0).val = (j 0).val := by
  unfold DotDims.lhsIdx
  rw [dif_neg (show ¬(0 : Fin S10000x512.rank) ∈ dot_S10000x512_S512x64_S10000x64_1_0_0_1_n_n.lhsBatch by decide), dif_pos (show (0 : Fin S10000x512.rank) ∈ dot_S10000x512_S512x64_S10000x64_1_0_0_1_n_n.lhsNonContracting by decide)]
  rfl
theorem lhs_cols (j : S10000x64.Idx) (q : dot_S10000x512_S512x64_S10000x64_1_0_0_1_n_n.contr.Idx) :
    (dot_S10000x512_S512x64_S10000x64_1_0_0_1_n_n.lhsIdx j q 1).val = (q ⟨0, by decide⟩).val :=
  dot_S10000x512_S512x64_S10000x64_1_0_0_1_n_n.lhsIdx_val_of_single rfl j q
theorem rhs_rows (j : S10000x64.Idx) (q : dot_S10000x512_S512x64_S10000x64_1_0_0_1_n_n.contr.Idx) :
    (dot_S10000x512_S512x64_S10000x64_1_0_0_1_n_n.rhsIdx j q 0).val = (q ⟨0, by decide⟩).val :=
  dot_S10000x512_S512x64_S10000x64_1_0_0_1_n_n.rhsIdx_val_of_single rfl j q
theorem rhs_cols (j : S10000x64.Idx) (q : dot_S10000x512_S512x64_S10000x64_1_0_0_1_n_n.contr.Idx) :
    (dot_S10000x512_S512x64_S10000x64_1_0_0_1_n_n.rhsIdx j q 1).val = (j 1).val := by
  unfold DotDims.rhsIdx
  rw [dif_neg (show ¬(1 : Fin S512x64.rank) ∈ dot_S10000x512_S512x64_S10000x64_1_0_0_1_n_n.rhsBatch by decide), dif_pos (show (1 : Fin S512x64.rank) ∈ dot_S10000x512_S512x64_S10000x64_1_0_0_1_n_n.rhsNonContracting by decide)]
  rfl

/-- The matrix product into the zero accumulator, at entry (r, u): the sum over the 512 column positions. -/
theorem matmul_at (a : FVec Ideal S10000x512 .bf16) (w : FVec Ideal S512x64 .bf16) (r : Fin 10000) (u : Fin 64) :
    matmul (F := Ideal) dot_S10000x512_S512x64_S10000x64_1_0_0_1_n_n none a w (constant (F := Ideal) S10000x64 .f32 0x00000000#32) (ix2 r u)
      = ∑ k : Fin 512, a (ix2 r k) * w (ix2 k u) := by
  simp only [matmul]
  rw [Ideal.matmul_constant_zero_apply, ← Equiv.sum_comp (contrEquiv1 dot_S10000x512_S512x64_S10000x64_1_0_0_1_n_n 512 rfl rfl).symm]
  refine Finset.sum_congr rfl fun k _ => ?_
  have hk := contrEquiv1_symm_val dot_S10000x512_S512x64_S10000x64_1_0_0_1_n_n 512 rfl rfl k
  have el : dot_S10000x512_S512x64_S10000x64_1_0_0_1_n_n.lhsIdx (ix2 r u) ((contrEquiv1 dot_S10000x512_S512x64_S10000x64_1_0_0_1_n_n 512 rfl rfl).symm k) = ix2 r k := funext fun a => Fin.ext (by
    match a with
    | ⟨0, _⟩ => exact lhs_rows _ _
    | ⟨1, _⟩ => exact (lhs_cols _ _).trans hk)
  have er : dot_S10000x512_S512x64_S10000x64_1_0_0_1_n_n.rhsIdx (ix2 r u) ((contrEquiv1 dot_S10000x512_S512x64_S10000x64_1_0_0_1_n_n 512 rfl rfl).symm k) = ix2 k u := funext fun a => Fin.ext (by
    match a with
    | ⟨0, _⟩ => exact (rhs_rows _ _).trans hk
    | ⟨1, _⟩ => exact rhs_cols _ _)
  rw [el, er]

/-- The body's stored value at entry (0, r, u) of the block. -/
theorem payload_at (x : Vec Ideal S1x10000x512 .bf16) (w : Vec Ideal S512x64 .bf16) (bias : Vec Ideal S1x64 .f32)
    (z : Fin 1) (r : Fin 10000) (u : Fin 64) :
    k0_pay1 (F := Ideal) x w bias (ix3 z r u)
      = max ((∑ k : Fin 512, x (ix3 (0 : Fin 1) r k) * w (ix2 k u)) + bias (ix2 (0 : Fin 1) u)) 0 := by
  unfold k0_pay1
  refine (shapeCast_ab_1ab_apply _ shapeCasts_S10000x64_S1x10000x64 z r u).trans ?_
  show max (matmul (F := Ideal) dot_S10000x512_S512x64_S10000x64_1_0_0_1_n_n none (shapeCast S10000x512 x shapeCasts_S1x10000x512_S10000x512)
      (shapeCast S512x64 w shapeCasts_S512x64_S512x64) (constant (F := Ideal) S10000x64 .f32 0x00000000#32) (ix2 r u)
      + broadcastTo S10000x64 (shapeCast S1x64 bias shapeCasts_S1x64_S1x64) broadcasts_S1x64_S10000x64 (ix2 r u))
      (Ideal.ofBits .f32 0x00000000#32) = _
  rw [matmul_at, shapeCast_self, shapeCast_self, broadcastTo_1b_ab_apply, Ideal.ofBits_zero_f32]
  refine congrArg (fun s => max (s + bias (ix2 (0 : Fin 1) u)) 0) (Finset.sum_congr rfl fun k _ => ?_)
  rw [shapeCast_1ab_ab_apply]

end Cert.KernelIdeal.Body

end
-- ==== Proof.Blocks.lean ====
/-
  From blocks to the array. The grid has one point per batch: point t takes batch t of the gathered columns, the
  whole weight matrix and the whole bias row, and writes batch t of the result. So what point t writes back is
  batch t of the dense layer of the three arrays as the region finds them, the sixteen blocks tile the
  [16, 10000, 64] result, and after the run the result array holds that dense layer.
-/
import proofs.«128345_j53687091200297_1_alg».proof.Proof.Gen.KernelIdeal.Value
import proofs.«128345_j53687091200297_1_alg».proof.Proof.Spec
import proofs.«128345_j53687091200297_1_alg».proof.Proof.Payload
import Idealize.ShloMosaic.Lib.Pipeline.Value
import Idealize.ShloMosaic.Lib.ValueIdx

noncomputable section

namespace Cert.KernelIdeal.Blocks

open Cert.KernelIdeal Cert.KernelIdeal.Gen Cert.KernelIdeal.Value Idealize.ShloMosaic Idealize.ShloMosaic.ValueIdx
open Idealize.ShloMosaic.TcCoe Idealize.SL.Sem
open Idealize.ShloMosaic.Pipeline (Dat)

/-- One block against the arrays it is cut from: if the block of columns is batch b of the column array, and the
    weight and bias blocks are the whole weight and bias arrays, then the body's stored value at a block entry is the
    dense layer at the matching entry of batch b. -/
theorem block_value (X : Vec Ideal S16x10000x512 .bf16) (W : Vec Ideal S512x64 .bf16) (B : Vec Ideal S1x64 .f32)
    (x : Vec Ideal S1x10000x512 .bf16) (w : Vec Ideal S512x64 .bf16) (bias : Vec Ideal S1x64 .f32) (b : Fin 16)
    (hx : ∀ (z : Fin 1) (r : Fin 10000) (k : Fin 512), x (ix3 z r k) = X (ix3 b r k))
    (hw : ∀ (k : Fin 512) (u : Fin 64), w (ix2 k u) = W (ix2 k u))
    (hb : ∀ (z : Fin 1) (u : Fin 64), bias (ix2 z u) = B (ix2 (0 : Fin 1) u))
    (y : S1x10000x64.Idx) (i : S16x10000x64.Idx) (h0 : (i 0).val = b.val) (h1 : (i 1).val = (y 1).val) (h2 : (i 2).val = (y 2).val) :
    k0_pay1 (F := Ideal) x w bias y = Cert.Dense.layer X W (fun j => B (ix2 (0 : Fin 1) (j 0))) i := by
  obtain ⟨z, r, u, rfl⟩ : ∃ (z : Fin 1) (r : Fin 10000) (u : Fin 64), y = ix3 z r u := ⟨y 0, y 1, y 2, eq_ix3 y⟩
  have hi : i = ix3 b r u := funext fun a => Fin.ext (by
    match a with
    | ⟨0, _⟩ => exact h0
    | ⟨1, _⟩ => exact h1
    | ⟨2, _⟩ => exact h2)
  subst hi
  rw [Cert.KernelIdeal.Body.payload_at, Cert.Dense.layer_apply]
  unfold Cert.Dense.entry
  simp only [hx, hw, hb]

variable (m : (ℓ : Loc nD τ sig) → Buf (Elt Ideal) ℓ) (ρ : Dev nD → PrngReg)

/-- The three arrays the region stages, as it finds them. -/
abbrev colsArr (c : Dev nD) : Vec Ideal S16x10000x512 .bf16 := V m c main_v23
abbrev wArr (c : Dev nD) : Vec Ideal S512x64 .bf16 := V m c main_v24
abbrev bArr (c : Dev nD) : Vec Ideal S1x64 .f32 := V m c main_v25

/-- What the result array ends holding: the dense layer of those three. -/
abbrev result (c : Dev nD) : Vec Ideal S16x10000x64 .f32 :=
  Cert.Dense.layer (colsArr m c) (wArr m c) (fun j => bArr m c (ix2 (0 : Fin 1) (j 0)))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the column window and the result window move along the batch axis with
    the point, the weight and bias windows stay at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The column block at point t is batch t of the column array. -/
theorem xblk_at (c : Dev nD) (t : Fin cfg0.N) (z : Fin 1) (r : Fin 10000) (k : Fin 512) :
    (iblk m c 0 t : Vec Ideal S1x10000x512 .bf16) (ix3 z r k) = colsArr m c (ix3 (t.cast N_0) r k) := by
  obtain ⟨e0, e1, e2, -⟩ := idx_facts t
  unfold iblk
  rw [View.read_apply]
  show V m c main_v23 _ = V m c main_v23 _
  refine congrArg (V m c main_v23) (funext fun a => Fin.ext ?_)
  match a with
  | ⟨0, _⟩ => show win0_0.index t (0 : Fin 3) * 1 + 1 * z.val = t.val; have := z.isLt; omega
  | ⟨1, _⟩ => show win0_0.index t (1 : Fin 3) * 10000 + 1 * r.val = r.val; omega
  | ⟨2, _⟩ => show win0_0.index t (2 : Fin 3) * 512 + 1 * k.val = k.val; omega

/-- The weight block at every point is the whole weight array. -/
theorem wblk_at (c : Dev nD) (t : Fin cfg0.N) (k : Fin 512) (u : Fin 64) :
    (iblk m c 1 t : Vec Ideal S512x64 .bf16) (ix2 k u) = wArr m c (ix2 k u) := by
  obtain ⟨-, -, -, e0, e1, -⟩ := idx_facts t
  unfold iblk
  rw [View.read_apply]
  show V m c main_v24 _ = V m c main_v24 _
  refine congrArg (V m c main_v24) (funext fun a => Fin.ext ?_)
  match a with
  | ⟨0, _⟩ => show win0_1.index t (0 : Fin 2) * 512 + 1 * k.val = k.val; omega
  | ⟨1, _⟩ => show win0_1.index t (1 : Fin 2) * 64 + 1 * u.val = u.val; omega

/-- The bias block at every point is the whole bias row. -/
theorem bblk_at (c : Dev nD) (t : Fin cfg0.N) (z : Fin 1) (u : Fin 64) :
    (iblk m c 2 t : Vec Ideal S1x64 .f32) (ix2 z u) = bArr m c (ix2 (0 : Fin 1) u) := by
  obtain ⟨-, -, -, -, -, e0, e1, -⟩ := idx_facts t
  unfold iblk
  rw [View.read_apply]
  show V m c main_v25 _ = V m c main_v25 _
  refine congrArg (V m c main_v25) (funext fun a => Fin.ext ?_)
  match a with
  | ⟨0, _⟩ => show win0_2.index t (0 : Fin 2) * 1 + 1 * z.val = 0; have := z.isLt; omega
  | ⟨1, _⟩ => show win0_2.index t (1 : Fin 2) * 64 + 1 * u.val = u.val; omega

/-- What point t writes back is block t of the dense layer. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz3]
  simp only [View.ld_unit_zero (S := S1x10000x512) hz3, View.ld_unit_zero (S := S512x64) hz2, View.ld_unit_zero (S := S1x64) hz2]
  obtain ⟨-, -, -, -, -, -, -, e0, e1, e2⟩ := idx_facts t
  funext y
  rw [View.read_apply]
  show k0_pay1 (F := Ideal) (iblk m c 0 t) (iblk m c 1 t) (iblk m c 2 t) y = result m c (((cfg0.win 3).blk t).view.emb y)
  refine block_value (colsArr m c) (wArr m c) (bArr m c) (iblk m c 0 t) (iblk m c 1 t) (iblk m c 2 t) (t.cast N_0)
    (xblk_at m c t) (wblk_at m c t) (bblk_at m c t) y (((cfg0.win 3).blk t).view.emb y) ?_ ?_ ?_
  · show win0_3.index t (0 : Fin 3) * 1 + 1 * (y 0).val = t.val
    have hy : (y 0).val < 1 := (y 0).isLt
    omega
  · show win0_3.index t (1 : Fin 3) * 10000 + 1 * (y 1).val = (y 1).val
    omega
  · show win0_3.index t (2 : Fin 3) * 64 + 1 * (y 2).val = (y 2).val
    omega

/-- An index of the result array is in point t's block iff each coordinate is in the block's range on its axis. -/
theorem mem_blk (t : Fin cfg0.N) (i : S16x10000x64.Idx) :
    i ∈ ((cfg0.win 3).blk t).view.set ↔ ∀ a : Fin 3, win0_3.index t a * S1x10000x64.size a ≤ (i a).val ∧ (i a).val < win0_3.index t a * S1x10000x64.size a + S1x10000x64.size a := by
  show i ∈ ((View.whole main_v26).slice (win0_3.rect t)).set ↔ _
  rw [View.set_slice_whole, Rect.mem_set_unit]
  exact Iff.rfl

/-- Every index of the result array is in the block of the point numbered by its batch coordinate. -/
theorem cover (i : S16x10000x64.Idx) :
    ∃ t : Fin cfg0.N, (cfg0.win 3).flush t = true ∧ i ∈ ((cfg0.win 3).blk t).view.set := by
  have hi0 : (i 0).val < 16 := (i 0).isLt
  have hi1 : (i 1).val < 10000 := (i 1).isLt
  have hi2 : (i 2).val < 64 := (i 2).isLt
  refine ⟨(i 0).cast N_0.symm, flush0_3 _, ?_⟩
  obtain ⟨-, -, -, -, -, -, -, e0, e1, e2⟩ := idx_facts ((i 0).cast N_0.symm)
  rw [mem_blk]
  intro a
  match a with
  | ⟨0, _⟩ => show win0_3.index ((i 0).cast N_0.symm) (0 : Fin 3) * 1 ≤ (i 0).val ∧ (i 0).val < win0_3.index ((i 0).cast N_0.symm) (0 : Fin 3) * 1 + 1; rw [e0]; show (i 0).val * 1 ≤ (i 0).val ∧ (i 0).val < (i 0).val * 1 + 1; omega
  | ⟨1, _⟩ => show win0_3.index ((i 0).cast N_0.symm) (1 : Fin 3) * 10000 ≤ (i 1).val ∧ (i 1).val < win0_3.index ((i 0).cast N_0.symm) (1 : Fin 3) * 10000 + 10000; omega
  | ⟨2, _⟩ => show win0_3.index ((i 0).cast N_0.symm) (2 : Fin 3) * 64 ≤ (i 2).val ∧ (i 2).val < win0_3.index ((i 0).cast N_0.symm) (2 : Fin 3) * 64 + 64; omega

/-- After the run the result array holds the dense layer of the three staged arrays. -/
theorem final (c : Dev nD) : (dats m 0 c).arrAt 3 cfg0.N = result m c :=
  (dats m 0 c).arrAt_eq_of_cover 3 (result m c) (fun t _ => flushed_eq m c t) cover

/-- The run, read: the result array at the dense layer of the staged arrays, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Blocks

end
-- ==== Proof.HostSide.lean ====
/-
  The three arrays the kernel's region stages, as functions of the arguments. Before the region the program clips the
  mapping, gathers the neighbour rows, masks the empty slots and flattens the last two axes (the same operations, in
  the same order, as the reference's first lines, so the same [16, 10000, 512] array of columns), then changes the
  float format of the columns and of the weight matrix (the identity on the extended reals) and gives the bias a
  leading unit axis.
-/
import proofs.«128345_j53687091200297_1_alg».proof.Proof.Gen.KernelIdeal.Frame
import proofs.«128345_j53687091200297_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostSide

open Cert.KernelIdeal Cert.KernelIdeal.Gen Idealize.ShloMosaic Idealize.ShloMosaic.ValueIdx
open Idealize.ShloMosaic.TcCoe Idealize.SL.Sem Idealize.ShloMosaic.StableHlo

variable (m : (ℓ : Loc nD τ sig) → Buf (Elt Ideal) ℓ)

set_option maxRecDepth 8192 in
set_option maxHeartbeats 2000000 in
/-- The staged columns are the reference's gathered columns of the same node and mapping arrays. -/
theorem cols_eq (c : Dev nD) :
    (V m c main_v23 : S16x10000x512.Idx → EReal)
      = Cert.ReferenceIdeal.Read.val_main_v22 (F := Ideal) (m ((c : Thread nD τ).loc main_arg0)) (m ((c : Thread nD τ).loc main_arg1)) := by
  dsimp only [V]
  simp only [hostOps0, hostOps0_1, hostOps0_2, hostOps0_3, hostOps0_4, List.flatten_cons, List.flatten_nil, List.append_nil, List.cons_append,
    List.nil_append]
  after_results_simp
  rfl

set_option maxRecDepth 8192 in
set_option maxHeartbeats 2000000 in
/-- The staged weight matrix is the weight argument (the change of float format is the identity on the extended reals). -/
theorem weight_eq (c : Dev nD) :
    (V m c main_v24 : S512x64.Idx → EReal) = (m ((c : Thread nD τ).loc main_arg2) : S512x64.Idx → EReal) := by
  dsimp only [V]
  simp only [hostOps0, hostOps0_1, hostOps0_2, hostOps0_3, hostOps0_4, List.flatten_cons, List.flatten_nil, List.append_nil, List.cons_append,
    List.nil_append]
  after_results_simp
  rfl

set_option maxRecDepth 8192 in
set_option maxHeartbeats 2000000 in
/-- The staged bias row is the bias argument with a leading unit axis. -/
theorem bias_row_eq (c : Dev nD) :
    (V m c main_v25 : S1x64.Idx → EReal)
      = shapeCast S1x64 (m ((c : Thread nD τ).loc main_arg3) : S64.Idx → EReal) shapeCasts_S64_S1x64 := by
  dsimp only [V]
  simp only [hostOps0, hostOps0_1, hostOps0_2, hostOps0_3, hostOps0_4, List.flatten_cons, List.flatten_nil, List.append_nil, List.cons_append,
    List.nil_append]
  after_results_simp
  rfl

/-- So its one row, read at u, is the bias argument at u. -/
theorem bias_eq (c : Dev nD) :
    (fun j : S64.Idx => (V m c main_v25 : S1x64.Idx → EReal) (ix2 (0 : Fin 1) (j 0)))
      = (m ((c : Thread nD τ).loc main_arg3) : S64.Idx → EReal) := by
  funext j
  rw [bias_row_eq]
  exact (shapeCast_a_1a_apply (a := 64) (m ((c : Thread nD τ).loc main_arg3) : S64.Idx → EReal) shapeCasts_S64_S1x64 (0 : Fin 1) (j 0)).trans
    (congrArg _ (eq_ix1 j).symm)

end Cert.KernelIdeal.HostSide

end
-- ==== Proof.RefDense.lean ====
/-
  The reference's result is the dense layer of its gathered columns: read index by index, its general dot product
  over the last axis of the [16, 10000, 512] columns is the sum over the 512 column positions, its bias is broadcast
  along the two leading axes, and its rectifier is the maximum with zero.
-/
import proofs.«128345_j53687091200297_1_alg».proof.Proof.Gen.ReferenceIdeal.Read
import proofs.«128345_j53687091200297_1_alg».proof.Proof.Spec

noncomputable section

namespace Cert.ReferenceIdeal.DenseValue

open Cert.ReferenceIdeal Cert.ReferenceIdeal.Read Idealize.ShloMosaic Idealize.ShloMosaic.ValueIdx

/-- The dot product's left operand index at (b, v, u) and position k is (b, v, k). -/
theorem lidx_eq (b : Fin 16) (v : Fin 10000) (u : Fin 64) (k : Fin 512) : lidx_main_v23 (ix3 b v u) k = ix3 b v k :=
  funext fun a => Fin.ext (by match a with | ⟨0, _⟩ => rfl | ⟨1, _⟩ => rfl | ⟨2, _⟩ => rfl)
/-- Its right operand index is (k, u). -/
theorem ridx_eq (b : Fin 16) (v : Fin 10000) (u : Fin 64) (k : Fin 512) : ridx_main_v23 (ix3 b v u) k = ix2 k u :=
  funext fun a => Fin.ext (by match a with | ⟨0, _⟩ => rfl | ⟨1, _⟩ => rfl)
/-- The broadcast bias is read at u. -/
theorem bidx_eq (b : Fin 16) (v : Fin 10000) (u : Fin 64) : idx_main_v24 (idx_main_v25 (ix3 b v u)) = ix1 u :=
  funext fun a => Fin.ext (by match a with | ⟨0, _⟩ => rfl)

/-- The reference's last stage is the dense layer of the stage that holds its gathered columns. -/
theorem result_eq (x0 : (⟨S16x10000x64, .f32⟩ : BufTy).Contents (Elt Ideal)) (x1 : (⟨S16x10000x8, .i32⟩ : BufTy).Contents (Elt Ideal))
    (x2 : (⟨S512x64, .f32⟩ : BufTy).Contents (Elt Ideal)) (x3 : (⟨S64, .f32⟩ : BufTy).Contents (Elt Ideal)) :
    val_main_v27 (F := Ideal) x0 x1 x2 x3 = Cert.Dense.layer (val_main_v22 (F := Ideal) x0 x1) x2 x3 := by
  funext i
  obtain ⟨b, v, u, rfl⟩ : ∃ (b : Fin 16) (v : Fin 10000) (u : Fin 64), i = ix3 b v u := ⟨i 0, i 1, i 2, eq_ix3 i⟩
  rw [Cert.Dense.layer_apply, val_main_v27_apply, val_main_v26_apply, val_main_v23_apply, val_main_v25_apply, val_main_v24_apply,
    val_main_call2_v0_apply, val_main_call2_cst_apply]
  unfold Cert.Dense.entry
  simp only [lidx_eq, ridx_eq, bidx_eq, Ideal.maximumf_def, Ideal.addf_def, Ideal.ofBits_def, Ideal.ofBits_zero_f32]

end Cert.ReferenceIdeal.DenseValue

end
-- ==== Proof.lean ====
/-
  A graph convolution's dense half against its reference, over the extended reals. Both programs first build the
  same [16, 10000, 512] array of gathered neighbour columns (clip the mapping, gather rows of the node array, zero the
  empty slots, flatten) with the same host operations. The reference then contracts the columns with the [512, 64]
  weight matrix in one general dot product, adds the bias and takes the maximum with zero. The kernel changes the
  columns and the weights to a narrower float format, which is the identity on the extended reals, and runs one grid
  point per batch: a matrix product of that batch's [10000, 512] columns with the weights into a zero accumulator, plus
  the bias row, maximum with zero, written to that batch of the result. Entry (b, v, u) of either result is
  max (∑ₖ cols[b, v, k] · w[k, u] + bias[u], 0), the same sum over the 512 column positions in the same order, so no
  law of the extended reals beyond 0 + x = x is needed and the finiteness of the inputs is never used.

  The steps: the dense layer as one function of its three operands (Spec); one grid point's stored value at an
  entry (Payload); the sixteen blocks tiling the result (Blocks); the three staged arrays as functions of the
  arguments (HostSide); the reference's last stage as the dense layer of its columns (RefDense). The frames and the
  two runs are the imported generated modules'.
-/
import proofs.«128345_j53687091200297_1_alg».proof.Defs
import proofs.«128345_j53687091200297_1_alg».proof.Proof.Gen.Kernel
import proofs.«128345_j53687091200297_1_alg».proof.Proof.Gen.Kernel.Skeleton
import proofs.«128345_j53687091200297_1_alg».proof.Proof.Gen.Kernel.Launch
import proofs.«128345_j53687091200297_1_alg».proof.Proof.Gen.Kernel.Points
import proofs.«128345_j53687091200297_1_alg».proof.Proof.Gen.Kernel.Frame
import proofs.«128345_j53687091200297_1_alg».proof.Proof.Gen.KernelIdeal
import proofs.«128345_j53687091200297_1_alg».proof.Proof.Gen.KernelIdeal.Skeleton
import proofs.«128345_j53687091200297_1_alg».proof.Proof.Gen.KernelIdeal.Launch
import proofs.«128345_j53687091200297_1_alg».proof.Proof.Gen.KernelIdeal.Points
import proofs.«128345_j53687091200297_1_alg».proof.Proof.Gen.KernelIdeal.Frame
import proofs.«128345_j53687091200297_1_alg».proof.Proof.Gen.ReferenceIdeal
import proofs.«128345_j53687091200297_1_alg».proof.Proof.Gen.Pre_finite_inputs
import proofs.«128345_j53687091200297_1_alg».proof.Proof.Gen.KernelIdeal.Value
import proofs.«128345_j53687091200297_1_alg».proof.Proof.Gen.ReferenceIdeal.Run
import proofs.«128345_j53687091200297_1_alg».proof.Proof.Gen.ReferenceIdeal.Read
import proofs.«128345_j53687091200297_1_alg».proof.Proof.Spec
import proofs.«128345_j53687091200297_1_alg».proof.Proof.Payload
import proofs.«128345_j53687091200297_1_alg».proof.Proof.Blocks
import proofs.«128345_j53687091200297_1_alg».proof.Proof.HostSide
import proofs.«128345_j53687091200297_1_alg».proof.Proof.RefDense
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The kernel's result array, as a function of its arguments: the dense layer of the gathered columns, the weight
    matrix and the bias. -/
theorem kernel_result (m : (ℓ : Loc Cert.KernelIdeal.nD Cert.KernelIdeal.τ Cert.KernelIdeal.sig) → Buf (Elt Ideal) ℓ) (c : Dev Cert.KernelIdeal.nD) :
    Cert.KernelIdeal.Blocks.result m c
      = Cert.Dense.layer
          (Cert.ReferenceIdeal.Read.val_main_v22 (F := Ideal) (m ((c : Thread Cert.KernelIdeal.nD Cert.KernelIdeal.τ).loc Cert.KernelIdeal.main_arg0))
            (m ((c : Thread Cert.KernelIdeal.nD Cert.KernelIdeal.τ).loc Cert.KernelIdeal.main_arg1)))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  exact congr (congr (congrArg Cert.Dense.layer (Cert.KernelIdeal.HostSide.cols_eq m c)) (Cert.KernelIdeal.HostSide.weight_eq m c))
    (Cert.KernelIdeal.HostSide.bias_eq m c)

/-- Both runs end, from arguments that agree, with the result arrays at one function of the arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.DenseValue.result_eq, (hagree c).1, (hagree c).2.1,
    (hagree c).2.2.1, (hagree c).2.2.2]
  exact (kernel_result m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
